-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S800000 32) (main_arg2 : IVec S800000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S1x64 : Shape := ⟨2, ![1, 64]⟩

abbrev nBuf : Space → Nat
  | .hbm => 73
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x64, .f32⟩
  | .hbm, ⟨72, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S_, .f32⟩
  | .hbm, ⟨94, _⟩ => ⟨S800000, .f32⟩
  | .hbm, ⟨95, _⟩ => ⟨S_, .f32⟩
  | .hbm, ⟨96, _⟩ => ⟨S50000, .f32⟩
  | .hbm, ⟨97, _⟩ => ⟨S800000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainProduct.lean ====
/-
  A plain matrix product read at an index, over any extents.

  For `x : [M, K]` and `y : [K, N]` and a dimension record between `[M, K]`, `[K, N]` and `[M, N]` that contracts the
  left operand's second axis with the right operand's first one, the sum over the contraction index in which a
  `tpu.matmul` into the zero accumulator and a host `dot_general` are both read at the ideal values is, at output index
  `(i, j)`, the textbook `Σ_d x[i, d] · y[d, j]`. It is stated for any record whose operand indices have, axis by axis,
  the coordinates a plain product has (four equations, each closed by `rfl` at a literal record), so one statement
  serves records of different extents.
-/
import Idealize.ShloMosaic.PureOps.Ideal.Laws
import Idealize.ShloMosaic.Lib.ValueIdx

noncomputable section

namespace Idealize.ShloMosaic.PlainProduct

open Idealize.ShloMosaic Idealize.ShloMosaic.ValueIdx

/-- **The contraction sum of a plain product, re-indexed by its one coordinate.** `D` is any dimension record between
    `[M, K]`, `[K, N]` and `[M, N]` with one contracted axis of extent `K` whose left operand index at output index `j`
    and contraction index `k` is `(j 0, k)` and whose right one is `(k, j 1)`. -/
theorem sum_contr {M K N : Nat}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : (⟨2, ![M, K]⟩ : Shape).Idx → EReal) (y : (⟨2, ![K, N]⟩ : Shape).Idx → EReal)
    (i : Fin M) (j : Fin N) :
    ∑ k : D.contr.Idx, x (D.lhsIdx (ix2 i j) k) * y (D.rhsIdx (ix2 i j) k)
      = ∑ d : Fin K, x (ix2 i d) * y (ix2 d j) := by
  rw [← Equiv.sum_comp (contrEquiv1 D K hr hs).symm]
  refine Finset.sum_congr rfl fun d _ => ?_
  have el : D.lhsIdx (ix2 i j) ((contrEquiv1 D K hr hs).symm d) = ix2 i d := by
    funext a
    refine Fin.ext ?_
    match a with
    | ⟨0, _⟩ => exact hl0 _ _
    | ⟨1, _⟩ => exact (hl1 _ _).trans (contrEquiv1_symm_val D K hr hs d)
  have er : D.rhsIdx (ix2 i j) ((contrEquiv1 D K hr hs).symm d) = ix2 d j := by
    funext a
    refine Fin.ext ?_
    match a with
    | ⟨0, _⟩ => exact (hr0 _ _).trans (contrEquiv1_symm_val D K hr hs d)
    | ⟨1, _⟩ => exact hr1 _ _
  rw [el, er]

/-- A `tpu.matmul` into the zero accumulator, at the ideal values, read at `(i, j)`. -/
theorem matmul_zero_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    matmul D prec x y (constant (F := Ideal) ⟨2, ![M, N]⟩ .f32 0x00000000#32) (ix2 i j)
      = ∑ d : Fin K, x (ix2 i d) * y (ix2 d j) :=
  (Ideal.matmul_constant_zero_apply D prec x y (ix2 i j)).trans (sum_contr D hr hs hl0 hl1 hr0 hr1 x y i j)

/-- A host `dot_general`, at the ideal values, read at `(i, j)`. -/
theorem dotGeneral_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (x : FVec Ideal ⟨2, ![M, K]⟩ φ₁) (y : FVec Ideal ⟨2, ![K, N]⟩ φ₂) (i : Fin M) (j : Fin N) :
    Host.dotGeneral D prec x y (ix2 i j) = ∑ d : Fin K, x (ix2 i d) * y (ix2 d j) := by
  simp only [Host.dotGeneral]
  exact (Ideal.dotGeneral_apply D prec _ x y (ix2 i j)).trans (sum_contr D hr hs hl0 hl1 hr0 hr1 x y i j)

end Idealize.ShloMosaic.PlainProduct

end
-- ==== Proof.LibAffineLayer.lean ====
/-
  One layer of a mean-aggregating graph network as a whole-array function at the ideal values, over any extents.

  For node features `h : [n, d]`, aggregated neighbour features `hn : [n, d]`, two weight matrices `Ws, Wn : [d, e]` and a
  bias row `b : [1, e]`, the layer's value at `(i, j)` is

      (Σ_k h[i, k] · Ws[k, j]  +  Σ_k hn[i, k] · Wn[k, j])  +  b[0, j],

  the two products added first and the bias last, as both programs add them; `affineRelu` takes the maximum of that with
  the zero word's value. The sums range over `Fin d`; nothing is distributed or re-associated, so the definition is
  meaningful at infinite entries too.
-/
import Idealize.ShloMosaic.PureOps.Ideal.Laws
import Idealize.ShloMosaic.Lib.ValueIdx

noncomputable section

namespace Idealize.ShloMosaic.AffineLayer

open Idealize.ShloMosaic Idealize.ShloMosaic.ValueIdx

/-- The layer before its nonlinearity, at `(i, j)` given as coordinates. -/
def affineAt {n d e : Nat} (h hn : (⟨2, ![n, d]⟩ : Shape).Idx → EReal) (Ws Wn : (⟨2, ![d, e]⟩ : Shape).Idx → EReal)
    (b : (⟨2, ![1, e]⟩ : Shape).Idx → EReal) (i : Fin n) (j : Fin e) : EReal :=
  (∑ k : Fin d, h (ix2 i k) * Ws (ix2 k j) + ∑ k : Fin d, hn (ix2 i k) * Wn (ix2 k j)) + b (ix2 (0 : Fin 1) j)

/-- The layer before its nonlinearity, as a whole array. -/
def affine {n d e : Nat} (h hn : (⟨2, ![n, d]⟩ : Shape).Idx → EReal) (Ws Wn : (⟨2, ![d, e]⟩ : Shape).Idx → EReal)
    (b : (⟨2, ![1, e]⟩ : Shape).Idx → EReal) : (⟨2, ![n, e]⟩ : Shape).Idx → EReal :=
  fun y => affineAt h hn Ws Wn b ⟨(y 0).val, idx2_lt0 y⟩ ⟨(y 1).val, idx2_lt1 y⟩

/-- The layer with its rectifier, as a whole array: the maximum with the zero word's value. -/
def affineRelu {n d e : Nat} (h hn : (⟨2, ![n, d]⟩ : Shape).Idx → EReal) (Ws Wn : (⟨2, ![d, e]⟩ : Shape).Idx → EReal)
    (b : (⟨2, ![1, e]⟩ : Shape).Idx → EReal) : (⟨2, ![n, e]⟩ : Shape).Idx → EReal :=
  fun y => max (affine h hn Ws Wn b y) (Ideal.ofBits .f32 0x00000000#32)

theorem affine_ix2 {n d e : Nat} (h hn : (⟨2, ![n, d]⟩ : Shape).Idx → EReal) (Ws Wn : (⟨2, ![d, e]⟩ : Shape).Idx → EReal)
    (b : (⟨2, ![1, e]⟩ : Shape).Idx → EReal) (i : Fin n) (j : Fin e) :
    affine h hn Ws Wn b (ix2 i j) = affineAt h hn Ws Wn b i j := rfl

theorem affineRelu_ix2 {n d e : Nat} (h hn : (⟨2, ![n, d]⟩ : Shape).Idx → EReal) (Ws Wn : (⟨2, ![d, e]⟩ : Shape).Idx → EReal)
    (b : (⟨2, ![1, e]⟩ : Shape).Idx → EReal) (i : Fin n) (j : Fin e) :
    affineRelu h hn Ws Wn b (ix2 i j) = max (affineAt h hn Ws Wn b i j) (Ideal.ofBits .f32 0x00000000#32) := rfl

/-- A row tile of the layer: if `x, xn : [r, d]` are rows `o .. o + r` of `h, hn`, the tile's value at `(p, q)` is the
    whole array's at `(o + p, q)`. -/
theorem affineAt_tile {n r d e : Nat} (h hn : (⟨2, ![n, d]⟩ : Shape).Idx → EReal) (x xn : (⟨2, ![r, d]⟩ : Shape).Idx → EReal)
    (Ws Wn : (⟨2, ![d, e]⟩ : Shape).Idx → EReal) (b : (⟨2, ![1, e]⟩ : Shape).Idx → EReal) (o : Nat)
    (p : Fin r) (hp : o + p.val < n)
    (hx : ∀ k : Fin d, x (ix2 p k) = h (ix2 ⟨o + p.val, hp⟩ k)) (hxn : ∀ k : Fin d, xn (ix2 p k) = hn (ix2 ⟨o + p.val, hp⟩ k))
    (q : Fin e) :
    affineAt x xn Ws Wn b p q = affineAt h hn Ws Wn b ⟨o + p.val, hp⟩ q := by
  unfold affineAt
  have e1 : ∑ k : Fin d, x (ix2 p k) * Ws (ix2 k q) = ∑ k : Fin d, h (ix2 ⟨o + p.val, hp⟩ k) * Ws (ix2 k q) :=
    Finset.sum_congr rfl fun k _ => by rw [hx k]
  have e2 : ∑ k : Fin d, xn (ix2 p k) * Wn (ix2 k q) = ∑ k : Fin d, hn (ix2 ⟨o + p.val, hp⟩ k) * Wn (ix2 k q) :=
    Finset.sum_congr rfl fun k _ => by rw [hxn k]
  rw [e1, e2]

end Idealize.ShloMosaic.AffineLayer

end
-- ==== Proof.Pay0.lean ====
/-
  The first layer's tile body at an index. The body rounds the node-feature tile, the neighbour tile and the two weight
  matrices to bf16 (the identity at the ideal values), multiplies each tile by its matrix into a zero accumulator, adds the
  two products, adds the bias row broadcast over the 5000 rows, and takes the maximum with a splat of the zero word. At
  `(p, q)` that is the maximum of the zero word's value and
  `(Σ_k x[p, k] · Ws[k, q] + Σ_k xn[p, k] · Wn[k, q]) + b[0, q]`, the sums over the 64 input features.
-/
import proofs.«174534_j14748917695089_1_alg».proof.Proof.Gen.KernelIdeal.Skeleton
import proofs.«174534_j14748917695089_1_alg».proof.Proof.LibPlainProduct
import proofs.«174534_j14748917695089_1_alg».proof.Proof.LibAffineLayer
import Idealize.ShloMosaic.Lib.Pipeline.Value
import Idealize.ShloMosaic.Lib.ValueLayout

noncomputable section

namespace Cert.KernelIdeal.Layer0

open Cert.KernelIdeal Cert.KernelIdeal.Gen
open Idealize.ShloMosaic Idealize.ShloMosaic.ValueIdx Idealize.ShloMosaic.AffineLayer

/-- What the layer does to the affine value: the rectifier, as the maximum with the zero word's value. -/
def post : EReal → EReal := fun v => max v (Ideal.ofBits .f32 0x00000000#32)

/-- The stored value of one tile at `(p, q)`. -/
theorem pay_apply (v0 v2 : Vec Ideal S5000x64 .f32) (v5 v7 : Vec Ideal S64x128 .f32) (v12 : Vec Ideal S1x128 .f32)
    (p : Fin 5000) (q : Fin 128) :
    k0_pay1 (F := Ideal) v0 v2 v5 v7 v12 (ix2 p q) = post (affineAt v0 v2 v5 v7 v12 p q) := by
  have e1 := PlainProduct.matmul_zero_apply dot_S5000x64_S64x128_S5000x128_1_0_0_1_n_n rfl rfl
    (fun _ _ => rfl) (fun _ _ => rfl) (fun _ _ => rfl) (fun _ _ => rfl) none
    (truncf .bf16 v0 bitsLt_bf16_f32) (truncf .bf16 v5 bitsLt_bf16_f32) p q
  have e2 := PlainProduct.matmul_zero_apply dot_S5000x64_S64x128_S5000x128_1_0_0_1_n_n rfl rfl
    (fun _ _ => rfl) (fun _ _ => rfl) (fun _ _ => rfl) (fun _ _ => rfl) none
    (truncf .bf16 (shapeCast S5000x64 v2 shapeCasts_S5000x64_S5000x64) bitsLt_bf16_f32) (truncf .bf16 v7 bitsLt_bf16_f32) p q
  have e3 := broadcastTo_1b_ab_apply (shapeCast S1x128 v12 shapeCasts_S1x128_S1x128) broadcasts_S1x128_S5000x128 p q
  -- the neighbour tile and the bias row pass through a recast to their own shape
  have e2' := e2.trans (show _ = ∑ d : Fin 64, v2 (ix2 p d) * v7 (ix2 d q) by rw [shapeCast_self]; rfl)
  have e3' := e3.trans (show _ = v12 (ix2 (0 : Fin 1) q) by rw [shapeCast_self])
  unfold k0_pay1 post affineAt
  exact congrArg₂ max (congrArg₂ (· + ·) (congrArg₂ (· + ·) e1 e2') e3') rfl

end Cert.KernelIdeal.Layer0

end
-- ==== Proof.Tile0.lean ====
/-
  The first layer's launch, read as a value. Ten row tiles of 5000 nodes each: at tile `t` the body reads rows
  `5000·t .. 5000·t + 5000` of the node features and of the aggregated neighbour features, the two whole weight matrices
  and the bias row, and writes its value (the tile body read at an index, in the module beside this one) to the same rows
  of the output. A tile's value at `(p, q)` is therefore the whole-array layer's at `(5000·t + p, q)`; the ten tiles
  cover the 50000 rows, so the output array ends holding the layer of the arrays the launch found, whatever those are.
-/
import proofs.«174534_j14748917695089_1_alg».proof.Proof.Gen.KernelIdeal.Frame
import proofs.«174534_j14748917695089_1_alg».proof.Proof.Pay0

set_option maxRecDepth 16384

noncomputable section

namespace Cert.KernelIdeal.Layer0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.AffineLayer

variable (V : (c : Dev nD) → (b : Ref sig .tc) → Buf (Elt Ideal) ((c : Thread nD τ).loc b))

/-! ## The arrays the launch finds, at their literal types -/

abbrev featA (c : Dev nD) : Vec Ideal S50000x64 .f32 := V c main_arg0
abbrev neighA (c : Dev nD) : Vec Ideal S50000x64 .f32 := V c main_v18
abbrev wSelfA (c : Dev nD) : Vec Ideal S64x128 .f32 := V c main_arg3
abbrev wNeighA (c : Dev nD) : Vec Ideal S64x128 .f32 := V c main_arg4
abbrev biasA (c : Dev nD) : Vec Ideal S1x128 .f32 := V c main_v19

/-- The layer of the arrays the launch finds: the affine value, then the layer's `post`. -/
def layer (c : Dev nD) : Vec Ideal S50000x128 .f32 :=
  fun y => post (affine (featA V c) (neighA V c) (wSelfA V c) (wNeighA V c) (biasA V c) y)

/-! ## The index maps over the grid -/

theorem hz : (![0, 0] : Fin 2 → Nat) = fun _ => 0 := funext fun a => by fin_cases a <;> rfl

/-- The two row-tiled inputs move with the output's row tile; the weights and the bias stay at block (0, 0); there are
    ten row tiles. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row tile is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-! ## What a point writes back -/

/-- Point `t` writes back rows `5000·t ..` of the layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e5, e51⟩ := idx_facts t
  show (k0_pay1 (F := Ideal) (iblk0 V c 0 t) (iblk0 V c 1 t) (iblk0 V c 2 t) (iblk0 V c 3 t) (iblk0 V c 4 t) : S5000x128.Idx → EReal)
    = fun y => layer V c (((cfg0.win 5).blk t).view.emb y)
  funext y
  obtain ⟨p, q, rfl⟩ : ∃ (p : Fin 5000) (q : Fin 128), y = ix2 p q := ⟨y 0, y 1, eq_ix2 y⟩
  have hp : win0_5.index t (0 : Fin 2) * 5000 + p.val < 50000 := by have := p.isLt; omega
  -- the output tile's row p is row 5000·t + p of the array
  have hy : ((cfg0.win 5).blk t).view.emb (ix2 p q) = ix2 (⟨win0_5.index t (0 : Fin 2) * 5000 + p.val, hp⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  rw [hy, pay_apply]
  show post _ = post (affine (featA V c) (neighA V c) (wSelfA V c) (wNeighA V c) (biasA V c) (ix2 _ q))
  rw [affine_ix2]
  refine congrArg post ?_
  -- the weights' and the bias's one block is the whole array
  have hw2 : (iblk0 V c 2 t : S64x128.Idx → EReal) = wSelfA V c := by
    funext z
    show V c main_arg3 (((cfg0.win 2).blk t).view.emb z) = V c main_arg3 z
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 128 + 1 * (z 1).val = (z 1).val; omega
  have hw3 : (iblk0 V c 3 t : S64x128.Idx → EReal) = wNeighA V c := by
    funext z
    show V c main_arg4 (((cfg0.win 3).blk t).view.emb z) = V c main_arg4 z
    refine congrArg _ (funext fun a => Fin.ext ?_)
    match a with
    | ⟨0, _⟩ => show win0_3.index t (0 : Fin 2) * 64 + 1 * (z 0).val = (z 0).val; omega
    | ⟨1, _⟩ => show win0_3.index t (1 : Fin 2) * 128 + 1 * (z 1).val = (z 1).val; omega
  have hw4 : (iblk0 V c 4 t : S1x128.Idx → EReal) = biasA V c := by
    funext z
    show V c main_v19 (((cfg0.win 4).blk t).view.emb z) = V c main_v19 z
    refine congrArg _ (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  rw [hw2, hw3, hw4]
  -- the two row-tiled inputs' row p is row 5000·t + p of their arrays
  refine affineAt_tile (featA V c) (neighA V c) (iblk0 V c 0 t) (iblk0 V c 1 t) (wSelfA V c) (wNeighA V c) (biasA V c)
    (win0_5.index t (0 : Fin 2) * 5000) p hp (fun k => ?_) (fun k => ?_) q
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 64 + 1 * k.val = k.val; omega
  · show V c main_v18 (((cfg0.win 1).blk t).view.emb (ix2 p k)) = V c main_v18 _
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 64 + 1 * k.val = k.val; omega

/-! ## The ten tiles cover the rows -/

theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Row `r` lies in tile `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the launch is the layer of the arrays the launch found. -/
theorem final (c : Dev nD) : (dat0 V c).arrAt 5 cfg0.N = layer V c :=
  (dat0 V c).arrAt_eq_of_cover 5 (layer V c) (fun t _ => flushed_eq V c t) cover

end Cert.KernelIdeal.Layer0

end
-- ==== Proof.Pay1.lean ====
/-
  The second layer's tile body at an index. Both 5000 × 128 tiles pass through a recast to their own shape, are rounded
  to bf16 with the two 128 × 128 weight matrices (the identity at the ideal values) and multiplied into zero accumulators;
  the products are added, the bias row is added to every row, and the maximum with a splat of the zero word is taken. At
  `(p, q)` that is the maximum of the zero word's value and
  `(Σ_k x[p, k] · Ws[k, q] + Σ_k xn[p, k] · Wn[k, q]) + b[0, q]`, the sums over the 128 hidden features.
-/
import proofs.«174534_j14748917695089_1_alg».proof.Proof.Gen.KernelIdeal.Skeleton
import proofs.«174534_j14748917695089_1_alg».proof.Proof.LibPlainProduct
import proofs.«174534_j14748917695089_1_alg».proof.Proof.LibAffineLayer
import Idealize.ShloMosaic.Lib.Pipeline.Value
import Idealize.ShloMosaic.Lib.ValueLayout

noncomputable section

namespace Cert.KernelIdeal.Layer1

open Cert.KernelIdeal Cert.KernelIdeal.Gen
open Idealize.ShloMosaic Idealize.ShloMosaic.ValueIdx Idealize.ShloMosaic.AffineLayer

/-- What the layer does to the affine value: the rectifier, as the maximum with the zero word's value. -/
def post : EReal → EReal := fun v => max v (Ideal.ofBits .f32 0x00000000#32)

/-- The stored value of one tile at `(p, q)`. -/
theorem pay_apply (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q) = post (affineAt v0 v3 v6 v8 v13 p q) := by
  have e1 := PlainProduct.matmul_zero_apply dot_S5000x128_S128x128_S5000x128_1_0_0_1_n_n rfl rfl
    (fun _ _ => rfl) (fun _ _ => rfl) (fun _ _ => rfl) (fun _ _ => rfl) none
    (truncf .bf16 (shapeCast S5000x128 v0 shapeCasts_S5000x128_S5000x128) bitsLt_bf16_f32) (truncf .bf16 v6 bitsLt_bf16_f32) p q
  have e2 := PlainProduct.matmul_zero_apply dot_S5000x128_S128x128_S5000x128_1_0_0_1_n_n rfl rfl
    (fun _ _ => rfl) (fun _ _ => rfl) (fun _ _ => rfl) (fun _ _ => rfl) none
    (truncf .bf16 (shapeCast S5000x128 v3 shapeCasts_S5000x128_S5000x128) bitsLt_bf16_f32) (truncf .bf16 v8 bitsLt_bf16_f32) p q
  have e3 := broadcastTo_1b_ab_apply (shapeCast S1x128 v13 shapeCasts_S1x128_S1x128) broadcasts_S1x128_S5000x128 p q
  -- each recast to the operand's own shape is the identity
  have e1' := e1.trans (show _ = ∑ d : Fin 128, v0 (ix2 p d) * v6 (ix2 d q) by rw [shapeCast_self]; rfl)
  have e2' := e2.trans (show _ = ∑ d : Fin 128, v3 (ix2 p d) * v8 (ix2 d q) by rw [shapeCast_self]; rfl)
  have e3' := e3.trans (show _ = v13 (ix2 (0 : Fin 1) q) by rw [shapeCast_self])
  unfold k1_pay1 post affineAt
  exact congrArg₂ max (congrArg₂ (· + ·) (congrArg₂ (· + ·) e1' e2') e3') rfl

end Cert.KernelIdeal.Layer1

end
-- ==== Proof.Tile1.lean ====
/-
  The second layer's launch, read as a value. Ten row tiles of 5000 nodes each: at tile `t` the body reads rows
  `5000·t .. 5000·t + 5000` of the first layer's output and of its aggregated neighbour features, the two whole weight matrices
  and the bias row, and writes its value (the tile body read at an index, in the module beside this one) to the same rows
  of the output. A tile's value at `(p, q)` is therefore the whole-array layer's at `(5000·t + p, q)`; the ten tiles
  cover the 50000 rows, so the output array ends holding the layer of the arrays the launch found, whatever those are.
-/
import proofs.«174534_j14748917695089_1_alg».proof.Proof.Gen.KernelIdeal.Frame
import proofs.«174534_j14748917695089_1_alg».proof.Proof.Pay1

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.AffineLayer

variable (V : (c : Dev nD) → (b : Ref sig .tc) → Buf (Elt Ideal) ((c : Thread nD τ).loc b))

/-! ## The arrays the launch finds, at their literal types -/

abbrev featA (c : Dev nD) : Vec Ideal S50000x128 .f32 := V c main_v20
abbrev neighA (c : Dev nD) : Vec Ideal S50000x128 .f32 := V c main_v32
abbrev wSelfA (c : Dev nD) : Vec Ideal S128x128 .f32 := V c main_arg6
abbrev wNeighA (c : Dev nD) : Vec Ideal S128x128 .f32 := V c main_arg7
abbrev biasA (c : Dev nD) : Vec Ideal S1x128 .f32 := V c main_v33

/-- The layer of the arrays the launch finds: the affine value, then the layer's `post`. -/
def layer (c : Dev nD) : Vec Ideal S50000x128 .f32 :=
  fun y => post (affine (featA V c) (neighA V c) (wSelfA V c) (wNeighA V c) (biasA V c) y)

/-! ## The index maps over the grid -/

theorem hz : (![0, 0] : Fin 2 → Nat) = fun _ => 0 := funext fun a => by fin_cases a <;> rfl

/-- The two row-tiled inputs move with the output's row tile; the weights and the bias stay at block (0, 0); there are
    ten row tiles. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row tile is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-! ## What a point writes back -/

/-- Point `t` writes back rows `5000·t ..` of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e5, e51⟩ := idx_facts t
  show (k1_pay1 (F := Ideal) (iblk1 V c 0 t) (iblk1 V c 1 t) (iblk1 V c 2 t) (iblk1 V c 3 t) (iblk1 V c 4 t) : S5000x128.Idx → EReal)
    = fun y => layer V c (((cfg1.win 5).blk t).view.emb y)
  funext y
  obtain ⟨p, q, rfl⟩ : ∃ (p : Fin 5000) (q : Fin 128), y = ix2 p q := ⟨y 0, y 1, eq_ix2 y⟩
  have hp : win1_5.index t (0 : Fin 2) * 5000 + p.val < 50000 := by have := p.isLt; omega
  -- the output tile's row p is row 5000·t + p of the array
  have hy : ((cfg1.win 5).blk t).view.emb (ix2 p q) = ix2 (⟨win1_5.index t (0 : Fin 2) * 5000 + p.val, hp⟩ : Fin 50000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * q.val = q.val; omega
  rw [hy, pay_apply]
  show post _ = post (affine (featA V c) (neighA V c) (wSelfA V c) (wNeighA V c) (biasA V c) (ix2 _ q))
  rw [affine_ix2]
  refine congrArg post ?_
  -- the weights' and the bias's one block is the whole array
  have hw2 : (iblk1 V c 2 t : S128x128.Idx → EReal) = wSelfA V c := by
    funext z
    show V c main_arg6 (((cfg1.win 2).blk t).view.emb z) = V c main_arg6 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  have hw3 : (iblk1 V c 3 t : S128x128.Idx → EReal) = wNeighA V c := by
    funext z
    show V c main_arg7 (((cfg1.win 3).blk t).view.emb z) = V c main_arg7 z
    refine congrArg _ (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  have hw4 : (iblk1 V c 4 t : S1x128.Idx → EReal) = biasA V c := by
    funext z
    show V c main_v33 (((cfg1.win 4).blk t).view.emb z) = V c main_v33 z
    refine congrArg _ (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  rw [hw2, hw3, hw4]
  -- the two row-tiled inputs' row p is row 5000·t + p of their arrays
  refine affineAt_tile (featA V c) (neighA V c) (iblk1 V c 0 t) (iblk1 V c 1 t) (wSelfA V c) (wNeighA V c) (biasA V c)
    (win1_5.index t (0 : Fin 2) * 5000) p hp (fun k => ?_) (fun k => ?_) q
  · show V c main_v20 (((cfg1.win 0).blk t).view.emb (ix2 p k)) = V c main_v20 _
    refine congrArg _ (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · show V c main_v32 (((cfg1.win 1).blk t).view.emb (ix2 p k)) = V c main_v32 _
    refine congrArg _ (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega

/-! ## The ten tiles cover the rows -/

theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- Row `r` lies in tile `r / 5000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the launch is the layer of the arrays the launch found. -/
theorem final (c : Dev nD) : (dat1 V c).arrAt 5 cfg1.N = layer V c :=
  (dat1 V c).arrAt_eq_of_cover 5 (layer V c) (fun t _ => flushed_eq V c t) cover

end Cert.KernelIdeal.Layer1

end
-- ==== Proof.Pay2.lean ====
/-
  The third layer's tile body at an index. Both 5000 × 128 tiles pass through a recast to their own shape, are rounded
  to bf16 with the two 128 × 64 weight matrices (the identity at the ideal values) and multiplied into zero accumulators;
  the products are added and the bias row is added to every row. There is no rectifier after the last layer. At `(p, q)`
  the stored value is `(Σ_k x[p, k] · Ws[k, q] + Σ_k xn[p, k] · Wn[k, q]) + b[0, q]`, the sums over the 128 hidden features.
-/
import proofs.«174534_j14748917695089_1_alg».proof.Proof.Gen.KernelIdeal.Skeleton
import proofs.«174534_j14748917695089_1_alg».proof.Proof.LibPlainProduct
import proofs.«174534_j14748917695089_1_alg».proof.Proof.LibAffineLayer
import Idealize.ShloMosaic.Lib.Pipeline.Value
import Idealize.ShloMosaic.Lib.ValueLayout

noncomputable section

namespace Cert.KernelIdeal.Layer2

open Cert.KernelIdeal Cert.KernelIdeal.Gen
open Idealize.ShloMosaic Idealize.ShloMosaic.ValueIdx Idealize.ShloMosaic.AffineLayer

/-- What the layer does to the affine value: nothing (the last layer has no rectifier). -/
def post : EReal → EReal := fun v => v

/-- The stored value of one tile at `(p, q)`. -/
theorem pay_apply (v0 v3 : Vec Ideal S5000x128 .f32) (v6 v8 : Vec Ideal S128x64 .f32) (v13 : Vec Ideal S1x64 .f32)
    (p : Fin 5000) (q : Fin 64) :
    k2_pay1 (F := Ideal) v0 v3 v6 v8 v13 (ix2 p q) = post (affineAt v0 v3 v6 v8 v13 p q) := by
  have e1 := PlainProduct.matmul_zero_apply dot_S5000x128_S128x64_S5000x64_1_0_0_1_n_n rfl rfl
    (fun _ _ => rfl) (fun _ _ => rfl) (fun _ _ => rfl) (fun _ _ => rfl) none
    (truncf .bf16 (shapeCast S5000x128 v0 shapeCasts_S5000x128_S5000x128) bitsLt_bf16_f32) (truncf .bf16 v6 bitsLt_bf16_f32) p q
  have e2 := PlainProduct.matmul_zero_apply dot_S5000x128_S128x64_S5000x64_1_0_0_1_n_n rfl rfl
    (fun _ _ => rfl) (fun _ _ => rfl) (fun _ _ => rfl) (fun _ _ => rfl) none
    (truncf .bf16 (shapeCast S5000x128 v3 shapeCasts_S5000x128_S5000x128) bitsLt_bf16_f32) (truncf .bf16 v8 bitsLt_bf16_f32) p q
  have e3 := broadcastTo_1b_ab_apply (shapeCast S1x64 v13 shapeCasts_S1x64_S1x64) broadcasts_S1x64_S5000x64 p q
  -- each recast to the operand's own shape is the identity
  have e1' := e1.trans (show _ = ∑ d : Fin 128, v0 (ix2 p d) * v6 (ix2 d q) by rw [shapeCast_self]; rfl)
  have e2' := e2.trans (show _ = ∑ d : Fin 128, v3 (ix2 p d) * v8 (ix2 d q) by rw [shapeCast_self]; rfl)
  have e3' := e3.trans (show _ = v13 (ix2 (0 : Fin 1) q) by rw [shapeCast_self])
  unfold k2_pay1 post affineAt
  exact congrArg₂ (· + ·) (congrArg₂ (· + ·) e1' e2') e3'

end Cert.KernelIdeal.Layer2

end
-- ==== Proof.Tile2.lean ====
/-
  The third layer's launch, read as a value. Ten row tiles of 5000 nodes each: at tile `t` the body reads rows
  `5000·t .. 5000·t + 5000` of the second layer's output and of its aggregated neighbour features, the two whole weight matrices
  and the bias row, and writes its value (the tile body read at an index, in the module beside this one) to the same rows
  of the output. A tile's value at `(p, q)` is therefore the whole-array layer's at `(5000·t + p, q)`; the ten tiles
  cover the 50000 rows, so the output array ends holding the layer of the arrays the launch found, whatever those are.
-/
import proofs.«174534_j14748917695089_1_alg».proof.Proof.Gen.KernelIdeal.Frame
import proofs.«174534_j14748917695089_1_alg».proof.Proof.Pay2

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Idealize.ShloMosaic.AffineLayer

variable (V : (c : Dev nD) → (b : Ref sig .tc) → Buf (Elt Ideal) ((c : Thread nD τ).loc b))

/-! ## The arrays the launch finds, at their literal types -/

abbrev featA (c : Dev nD) : Vec Ideal S50000x128 .f32 := V c main_v34
abbrev neighA (c : Dev nD) : Vec Ideal S50000x128 .f32 := V c main_v46
abbrev wSelfA (c : Dev nD) : Vec Ideal S128x64 .f32 := V c main_arg9
abbrev wNeighA (c : Dev nD) : Vec Ideal S128x64 .f32 := V c main_arg10
abbrev biasA (c : Dev nD) : Vec Ideal S1x64 .f32 := V c main_v47

/-- The layer of the arrays the launch finds: the affine value, then the layer's `post`. -/
def layer (c : Dev nD) : Vec Ideal S50000x64 .f32 :=
  fun y => post (affine (featA V c) (neighA V c) (wSelfA V c) (wNeighA V c) (biasA V c) y)

/-! ## The index maps over the grid -/

theorem hz : (![0, 0] : Fin 2 → Nat) = fun _ => 0 := funext fun a => by fin_cases a <;> rfl

/-- The two row-tiled inputs move with the output's row tile; the weights and the bias stay at block (0, 0); there are
    ten row tiles. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row tile is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-! ## What a point writes back -/

/-- Point `t` writes back rows `5000·t ..` of the layer. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e5, e51⟩ := idx_facts t
  show (k2_pay1 (F := Ideal) (iblk2 V c 0 t) (iblk2 V c 1 t) (iblk2 V c 2 t) (iblk2 V c 3 t) (iblk2 V c 4 t) : S5000x64.Idx → EReal)
    = fun y => layer V c (((cfg2.win 5).blk t).view.emb y)
  funext y
  obtain ⟨p, q, rfl⟩ : ∃ (p : Fin 5000) (q : Fin 64), y = ix2 p q := ⟨y 0, y 1, eq_ix2 y⟩
  have hp : win2_5.index t (0 : Fin 2) * 5000 + p.val < 50000 := by have := p.isLt; omega
  -- the output tile's row p is row 5000·t + p of the array
  have hy : ((cfg2.win 5).blk t).view.emb (ix2 p q) = ix2 (⟨win2_5.index t (0 : Fin 2) * 5000 + p.val, hp⟩ : Fin 50000) q := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 64 + 1 * q.val = q.val; omega
  rw [hy, pay_apply]
  show post _ = post (affine (featA V c) (neighA V c) (wSelfA V c) (wNeighA V c) (biasA V c) (ix2 _ q))
  rw [affine_ix2]
  refine congrArg post ?_
  -- the weights' and the bias's one block is the whole array
  have hw2 : (iblk2 V c 2 t : S128x64.Idx → EReal) = wSelfA V c := by
    funext z
    show V c main_arg9 (((cfg2.win 2).blk t).view.emb z) = V c main_arg9 z
    refine congrArg _ (funext fun a => Fin.ext ?_)
    match a with
    | ⟨0, _⟩ => show win2_2.index t (0 : Fin 2) * 128 + 1 * (z 0).val = (z 0).val; omega
    | ⟨1, _⟩ => show win2_2.index t (1 : Fin 2) * 64 + 1 * (z 1).val = (z 1).val; omega
  have hw3 : (iblk2 V c 3 t : S128x64.Idx → EReal) = wNeighA V c := by
    funext z
    show V c main_arg10 (((cfg2.win 3).blk t).view.emb z) = V c main_arg10 z
    refine congrArg _ (funext fun a => Fin.ext ?_)
    match a with
    | ⟨0, _⟩ => show win2_3.index t (0 : Fin 2) * 128 + 1 * (z 0).val = (z 0).val; omega
    | ⟨1, _⟩ => show win2_3.index t (1 : Fin 2) * 64 + 1 * (z 1).val = (z 1).val; omega
  have hw4 : (iblk2 V c 4 t : S1x64.Idx → EReal) = biasA V c := by
    funext z
    show V c main_v47 (((cfg2.win 4).blk t).view.emb z) = V c main_v47 z
    refine congrArg _ (funext fun a => Fin.ext ?_)
    match a with
    | ⟨0, _⟩ => show win2_4.index t (0 : Fin 2) * 1 + 1 * (z 0).val = (z 0).val; omega
    | ⟨1, _⟩ => show win2_4.index t (1 : Fin 2) * 64 + 1 * (z 1).val = (z 1).val; omega
  rw [hw2, hw3, hw4]
  -- the two row-tiled inputs' row p is row 5000·t + p of their arrays
  refine affineAt_tile (featA V c) (neighA V c) (iblk2 V c 0 t) (iblk2 V c 1 t) (wSelfA V c) (wNeighA V c) (biasA V c)
    (win2_5.index t (0 : Fin 2) * 5000) p hp (fun k => ?_) (fun k => ?_) q
  · show V c main_v34 (((cfg2.win 0).blk t).view.emb (ix2 p k)) = V c main_v34 _
    refine congrArg _ (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 128 + 1 * k.val = k.val; omega
  · show V c main_v46 (((cfg2.win 1).blk t).view.emb (ix2 p k)) = V c main_v46 _
    refine congrArg _ (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 128 + 1 * k.val = k.val; omega

/-! ## The ten tiles cover the rows -/

theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v48).slice (win2_5.rect t)).set ↔ _
  rw [View.set_slice_whole, Rect.mem_set_unit]
  exact Iff.rfl

/-- Row `r` lies in tile `r / 5000`. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the launch is the layer of the arrays the launch found. -/
theorem final (c : Dev nD) : (dat2 V c).arrAt 5 cfg2.N = layer V c :=
  (dat2 V c).arrAt_eq_of_cover 5 (layer V c) (fun t _ => flushed_eq V c t) cover

end Cert.KernelIdeal.Layer2

end
-- ==== Proof.KernelValue.lean ====
/-
  The idealized kernel program's result as one function of its arguments.

  @main runs three launches with host operations before each. Before launch L the host gathers the rows `h[src[e]]` of the
  current features (a negative index wrapped by 50000 first), adds them into the rows `dst[e]` of a zero array, and
  divides row `i` by `max(deg[i], 1)`, the in-degree `deg` being the same scatter-add of ones, computed once before the
  first launch and read again before the other two. Launch L then replaces the features by the layer of (features,
  that mean of neighbours, the layer's two weight matrices, its bias as a row). Walking the buffers' contents through the
  boundaries — a host stretch rewrites the buffers it writes and keeps the rest, a launch rewrites its output array and
  keeps the rest — gives the result array as `net` of the twelve arguments.
-/
import proofs.«174534_j14748917695089_1_alg».proof.Proof.Tile0
import proofs.«174534_j14748917695089_1_alg».proof.Proof.Tile1
import proofs.«174534_j14748917695089_1_alg».proof.Proof.Tile2
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo
open Idealize.ShloMosaic.AffineLayer

/-! ## The host side, as functions of arrays -/

/-- The source indices as gather rows: a negative index wrapped by the node count, then a unit axis added. -/
def srcRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The destination indices as scatter rows: a unit axis added. -/
def dstRows (dst : IVec S800000 32) : IVec S800000x1 32 :=
  broadcastInDim S800000x1 ![0] bcast_S800000_S800000x1_0 dst

/-- The in-degree floored at one, as a column: ones added into the rows `dst`, the maximum with one. -/
def degCol (dst : IVec S800000 32) : FVec Ideal S50000x1 .f32 :=
  broadcastInDim S50000x1 ![0] bcast_S50000_S50000x1_0
    (maximumf (F := Ideal) (Host.scatterAdd (F := Ideal) scatter_S50000_S800000x1_S800000_n_0_0_1
        (broadcastInDim S50000 ![] bcast_S_S50000 (constant (F := Ideal) S_ .f32 0x00000000#32)) (dstRows dst)
        (broadcastInDim S800000 ![] bcast_S_S800000 (constant (F := Ideal) S_ .f32 0x3F800000#32)))
      (broadcastInDim S50000 ![] bcast_S_S50000 (constant (F := Ideal) S_ .f32 0x3F800000#32)))

/-- The mean of neighbours of 64-wide features, given the degree column. -/
def mean64 (h : FVec Ideal S50000x64 .f32) (src dst : IVec S800000 32)
    (deg : FVec Ideal S50000x1 .f32) : FVec Ideal S50000x64 .f32 :=
  Host.divf (F := Ideal) (Host.scatterAdd (F := Ideal) scatter_S50000x64_S800000x1_S800000x64_1_0_0_1
      (broadcastInDim S50000x64 ![] bcast_S_S50000x64 (constant (F := Ideal) S_ .f32 0x00000000#32)) (dstRows dst)
      (Host.gather gather_S50000x64_S800000x1_S800000x64_1_0_n_n_0_1_164 h (srcRows src)))
    (broadcastInDim S50000x64 ![0, 1] bcast_S50000x1_S50000x64_0_1 deg)

/-- The mean of neighbours of 128-wide features, given the degree column. -/
def mean128 (h : FVec Ideal S50000x128 .f32) (src dst : IVec S800000 32)
    (deg : FVec Ideal S50000x1 .f32) : FVec Ideal S50000x128 .f32 :=
  Host.divf (F := Ideal) (Host.scatterAdd (F := Ideal) scatter_S50000x128_S800000x1_S800000x128_1_0_0_1
      (broadcastInDim S50000x128 ![] bcast_S_S50000x128 (constant (F := Ideal) S_ .f32 0x00000000#32)) (dstRows dst)
      (Host.gather gather_S50000x128_S800000x1_S800000x128_1_0_n_n_0_1_1128 h (srcRows src)))
    (broadcastInDim S50000x128 ![0, 1] bcast_S50000x1_S50000x128_0_1 deg)

variable (m : (ℓ : Loc nD τ sig) → Buf (Elt Ideal) ℓ) (ρ : Dev nD → PrngReg) (c : Dev nD)

/-! ## The boundary before the first launch -/

theorem W1_arg0 : W1 m ρ c (Proc.devRef .tc main_arg0) = m ((c : Thread nD τ).loc main_arg0) := by
  show StableHlo.after hostOps0 (W0 m ρ c) (Proc.devRef .tc main_arg0) = _
  after_results
  try rfl
theorem W1_arg3 : W1 m ρ c (Proc.devRef .tc main_arg3) = m ((c : Thread nD τ).loc main_arg3) := by
  show StableHlo.after hostOps0 (W0 m ρ c) (Proc.devRef .tc main_arg3) = _
  after_results
  try rfl
theorem W1_v6 : W1 m ρ c (Proc.devRef .tc main_v6) = degCol (m ((c : Thread nD τ).loc main_arg2)) := by
  show StableHlo.after hostOps0 (W0 m ρ c) (Proc.devRef .tc main_v6) = _
  after_results
  try rfl
theorem W1_v18 : W1 m ρ c (Proc.devRef .tc main_v18)
    = mean64 (m ((c : Thread nD τ).loc main_arg0)) (m ((c : Thread nD τ).loc main_arg1)) (m ((c : Thread nD τ).loc main_arg2))
        (degCol (m ((c : Thread nD τ).loc main_arg2))) := by
  show StableHlo.after hostOps0 (W0 m ρ c) (Proc.devRef .tc main_v18) = _
  after_results_simp
  try rfl
theorem W1_v19 : W1 m ρ c (Proc.devRef .tc main_v19) = shapeCast S1x128 (m ((c : Thread nD τ).loc main_arg5)) shapeCasts_S128_S1x128 := by
  show StableHlo.after hostOps0 (W0 m ρ c) (Proc.devRef .tc main_v19) = _
  after_results
  try rfl
theorem W1_arg4 : W1 m ρ c (Proc.devRef .tc main_arg4) = m ((c : Thread nD τ).loc main_arg4) := by
  show StableHlo.after hostOps0 (W0 m ρ c) (Proc.devRef .tc main_arg4) = _
  after_results
  try rfl

/-! ## The network, layer by layer -/

/-- The three layers as whole-array functions: the affine value, then each layer's `post`. -/
def lay0 (x xn : FVec Ideal S50000x64 .f32) (ws wn : FVec Ideal S64x128 .f32) (b : FVec Ideal S1x128 .f32) : FVec Ideal S50000x128 .f32 :=
  fun y => Layer0.post (affine x xn ws wn b y)
def lay1 (x xn : FVec Ideal S50000x128 .f32) (ws wn : FVec Ideal S128x128 .f32) (b : FVec Ideal S1x128 .f32) : FVec Ideal S50000x128 .f32 :=
  fun y => Layer1.post (affine x xn ws wn b y)
def lay2 (x xn : FVec Ideal S50000x128 .f32) (ws wn : FVec Ideal S128x64 .f32) (b : FVec Ideal S1x64 .f32) : FVec Ideal S50000x64 .f32 :=
  fun y => Layer2.post (affine x xn ws wn b y)

/-- The whole network as a function of the twelve argument arrays. -/
def net (a0 : FVec Ideal S50000x64 .f32) (a1 a2 : IVec S800000 32)
    (a3 a4 : FVec Ideal S64x128 .f32) (a5 : FVec Ideal S128 .f32)
    (a6 a7 : FVec Ideal S128x128 .f32) (a8 : FVec Ideal S128 .f32)
    (a9 a10 : FVec Ideal S128x64 .f32) (a11 : FVec Ideal S64 .f32) : FVec Ideal S50000x64 .f32 :=
  let h1 := lay0 a0 (mean64 a0 a1 a2 (degCol a2)) a3 a4 (shapeCast S1x128 a5 shapeCasts_S128_S1x128)
  let h2 := lay1 h1 (mean128 h1 a1 a2 (degCol a2)) a6 a7 (shapeCast S1x128 a8 shapeCasts_S128_S1x128)
  lay2 h2 (mean128 h2 a1 a2 (degCol a2)) a9 a10 (shapeCast S1x64 a11 shapeCasts_S64_S1x64)

/-- The features after the first and the second layer, of the launch memory. -/
def feat1 : FVec Ideal S50000x128 .f32 :=
  lay0 (m ((c : Thread nD τ).loc main_arg0)) (mean64 (m ((c : Thread nD τ).loc main_arg0)) (m ((c : Thread nD τ).loc main_arg1)) (m ((c : Thread nD τ).loc main_arg2)) (degCol (m ((c : Thread nD τ).loc main_arg2)))) (m ((c : Thread nD τ).loc main_arg3)) (m ((c : Thread nD τ).loc main_arg4))
    (shapeCast S1x128 (m ((c : Thread nD τ).loc main_arg5)) shapeCasts_S128_S1x128)
def feat2 : FVec Ideal S50000x128 .f32 :=
  lay1 (feat1 m c) (mean128 (feat1 m c) (m ((c : Thread nD τ).loc main_arg1)) (m ((c : Thread nD τ).loc main_arg2)) (degCol (m ((c : Thread nD τ).loc main_arg2)))) (m ((c : Thread nD τ).loc main_arg6)) (m ((c : Thread nD τ).loc main_arg7))
    (shapeCast S1x128 (m ((c : Thread nD τ).loc main_arg8)) shapeCasts_S128_S1x128)

/-! ## After the first launch -/

theorem W2_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
  try rfl
theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
  try rfl
theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
  try rfl
theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
  try rfl
theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results
  try rfl
theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results
  try rfl
theorem W2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results
  try rfl
theorem W2_arg11 : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
  try rfl
theorem W2_v6 : W2 m ρ c (Proc.devRef .tc main_v6) = degCol (m ((c : Thread nD τ).loc main_arg2)) := by
  rw [W2_of_ne m ρ c main_v6 (by decide)]
  exact W1_v6 m ρ c

/-- The first launch leaves the first layer's features in its output array. -/
theorem W2_v20 : W2 m ρ c (Proc.devRef .tc main_v20) = feat1 m c := by
  refine (W2_arr m ρ c 5).trans ((Layer0.final (V1 m ρ) c).trans ?_)
  show (fun y => Layer0.post (affine (W1 m ρ c (Proc.devRef .tc main_arg0)) (W1 m ρ c (Proc.devRef .tc main_v18))
    (W1 m ρ c (Proc.devRef .tc main_arg3)) (W1 m ρ c (Proc.devRef .tc main_arg4)) (W1 m ρ c (Proc.devRef .tc main_v19)) y)) = _
  rw [W1_arg0, W1_v18, W1_arg3, W1_arg4, W1_v19]
  rfl

/-! ## Before and after the second launch -/

theorem W3_v20 : W3 m ρ c (Proc.devRef .tc main_v20) = feat1 m c := by
  show StableHlo.after hostOps1 (W2 m ρ c) (Proc.devRef .tc main_v20) = _
  after_results
  exact W2_v20 m ρ c
theorem W3_v32 : W3 m ρ c (Proc.devRef .tc main_v32)
    = mean128 (feat1 m c) (m ((c : Thread nD τ).loc main_arg1)) (m ((c : Thread nD τ).loc main_arg2)) (degCol (m ((c : Thread nD τ).loc main_arg2))) := by
  show StableHlo.after hostOps1 (W2 m ρ c) (Proc.devRef .tc main_v32) = _
  after_results_simp
  rw [W2_v20, W2_arg1, W2_arg2, W2_v6]
  rfl
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_v33 : W3 m ρ c (Proc.devRef .tc main_v33) = shapeCast S1x128 (m ((c : Thread nD τ).loc main_arg8)) shapeCasts_S128_S1x128 := by
  show StableHlo.after hostOps1 (W2 m ρ c) (Proc.devRef .tc main_v33) = _
  after_results
  rw [W2_arg8]
  rfl

theorem W4_arg1 : W4 m ρ c (Proc.devRef .tc main_arg1) = m ((c : Thread nD τ).loc main_arg1) := by
  rw [W4_of_ne m ρ c main_arg1 (by decide)]
  show StableHlo.after hostOps1 (W2 m ρ c) (Proc.devRef .tc main_arg1) = _
  after_results
  exact W2_arg1 m ρ c
theorem W4_arg2 : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results
  exact W2_arg2 m ρ c
theorem W4_arg9 : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results
  exact W2_arg9 m ρ c
theorem W4_arg10 : W4 m ρ c (Proc.devRef .tc main_arg10) = m ((c : Thread nD τ).loc main_arg10) := by
  rw [W4_of_ne m ρ c main_arg10 (by decide)]
  show StableHlo.after hostOps1 (W2 m ρ c) (Proc.devRef .tc main_arg10) = _
  after_results
  exact W2_arg10 m ρ c
theorem W4_arg11 : W4 m ρ c (Proc.devRef .tc main_arg11) = m ((c : Thread nD τ).loc main_arg11) := by
  rw [W4_of_ne m ρ c main_arg11 (by decide)]
  show StableHlo.after hostOps1 (W2 m ρ c) (Proc.devRef .tc main_arg11) = _
  after_results
  exact W2_arg11 m ρ c
theorem W4_v6 : W4 m ρ c (Proc.devRef .tc main_v6) = degCol (m ((c : Thread nD τ).loc main_arg2)) := by
  rw [W4_of_ne m ρ c main_v6 (by decide)]
  show StableHlo.after hostOps1 (W2 m ρ c) (Proc.devRef .tc main_v6) = _
  after_results
  exact W2_v6 m ρ c

/-- The second launch leaves the second layer's features in its output array. -/
theorem W4_v34 : W4 m ρ c (Proc.devRef .tc main_v34) = feat2 m c := by
  refine (W4_arr m ρ c 5).trans ((Layer1.final (V3 m ρ) c).trans ?_)
  show (fun y => Layer1.post (affine (W3 m ρ c (Proc.devRef .tc main_v20)) (W3 m ρ c (Proc.devRef .tc main_v32))
    (W3 m ρ c (Proc.devRef .tc main_arg6)) (W3 m ρ c (Proc.devRef .tc main_arg7)) (W3 m ρ c (Proc.devRef .tc main_v33)) y)) = _
  rw [W3_v20, W3_v32, W3_arg6, W3_arg7, W3_v33]
  rfl

/-! ## Before and after the third launch -/

theorem W5_v34 : W5 m ρ c (Proc.devRef .tc main_v34) = feat2 m c := by
  show StableHlo.after hostOps2 (W4 m ρ c) (Proc.devRef .tc main_v34) = _
  after_results
  exact W4_v34 m ρ c
theorem W5_v46 : W5 m ρ c (Proc.devRef .tc main_v46)
    = mean128 (feat2 m c) (m ((c : Thread nD τ).loc main_arg1)) (m ((c : Thread nD τ).loc main_arg2)) (degCol (m ((c : Thread nD τ).loc main_arg2))) := by
  show StableHlo.after hostOps2 (W4 m ρ c) (Proc.devRef .tc main_v46) = _
  after_results_simp
  rw [W4_v34, W4_arg1, W4_arg2, W4_v6]
  rfl
theorem W5_arg9 : W5 m ρ c (Proc.devRef .tc main_arg9) = m ((c : Thread nD τ).loc main_arg9) := by
  show StableHlo.after hostOps2 (W4 m ρ c) (Proc.devRef .tc main_arg9) = _
  after_results
  exact W4_arg9 m ρ c
theorem W5_arg10 : W5 m ρ c (Proc.devRef .tc main_arg10) = m ((c : Thread nD τ).loc main_arg10) := by
  show StableHlo.after hostOps2 (W4 m ρ c) (Proc.devRef .tc main_arg10) = _
  after_results
  exact W4_arg10 m ρ c
theorem W5_v47 : W5 m ρ c (Proc.devRef .tc main_v47) = shapeCast S1x64 (m ((c : Thread nD τ).loc main_arg11)) shapeCasts_S64_S1x64 := by
  show StableHlo.after hostOps2 (W4 m ρ c) (Proc.devRef .tc main_v47) = _
  after_results
  rw [W4_arg11]
  rfl

/-- THE RESULT: what the third launch leaves in the result array is the network of the launch memory's arguments. -/
theorem W6_v48 : W6 m ρ c (Proc.devRef .tc main_v48)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (W6_arr m ρ c 5).trans ((Layer2.final (V5 m ρ) c).trans ?_)
  show (fun y => Layer2.post (affine (W5 m ρ c (Proc.devRef .tc main_v34)) (W5 m ρ c (Proc.devRef .tc main_v46))
    (W5 m ρ c (Proc.devRef .tc main_arg9)) (W5 m ρ c (Proc.devRef .tc main_arg10)) (W5 m ρ c (Proc.devRef .tc main_v47)) y)) = _
  rw [W5_v34, W5_v46, W5_arg9, W5_arg10, W5_v47]
  rfl

end Cert.KernelIdeal.Net

end
-- ==== Proof.RefNet.lean ====
/-
  The idealized reference's result as the same function of the arguments as the kernel program's.

  The reference's @main is one line of host operations: per layer the mean of neighbours (gather, scatter-add, division by
  the floored in-degree, the in-degree recomputed each time from the same `dst`), the two `dot_general`s added, the bias
  broadcast from `[e]` through `[1, e]` to every row and added, and after the first two layers the maximum with a zero
  splat. Each `dot_general` read at an index is the textbook sum, the twice-broadcast bias at `(i, j)` is `b[j]`, which is
  also what the bias recast to a row holds at `(0, j)`: so a layer of the reference is the whole-array layer the kernel's
  launches compute, and the host side between the layers is the same operations on both sides.
-/
import proofs.«174534_j14748917695089_1_alg».proof.Proof.Gen.ReferenceIdeal.Run
import proofs.«174534_j14748917695089_1_alg».proof.Proof.KernelValue
import Idealize.ShloMosaic.Lib.Pipeline.Value
import Idealize.ShloMosaic.Lib.ValueLayout

set_option maxRecDepth 16384

noncomputable section

namespace Cert.RefNet

open Cert.ReferenceIdeal Cert.ReferenceIdeal.Gen
open Idealize.ShloMosaic Idealize.ShloMosaic.TcCoe Idealize.SL.Sem Idealize.ShloMosaic.ValueIdx
open Idealize.ShloMosaic.AffineLayer

/-! ## A layer's linear part, as the reference writes it -/

def lin0 (h hn : FVec Ideal S50000x64 .f32) (ws wn : FVec Ideal S64x128 .f32) (b : FVec Ideal S128 .f32) : FVec Ideal S50000x128 .f32 :=
  addf (addf (Host.dotGeneral dot_S50000x64_S64x128_S50000x128_1_0_0_1_n_n none h ws)
      (Host.dotGeneral dot_S50000x64_S64x128_S50000x128_1_0_0_1_n_n none hn wn))
    (broadcastInDim S50000x128 ![0, 1] bcast_S1x128_S50000x128_0_1 (broadcastInDim S1x128 ![1] bcast_S128_S1x128_1 b))

def lin1 (h hn : FVec Ideal S50000x128 .f32) (ws wn : FVec Ideal S128x128 .f32) (b : FVec Ideal S128 .f32) : FVec Ideal S50000x128 .f32 :=
  addf (addf (Host.dotGeneral dot_S50000x128_S128x128_S50000x128_1_0_0_1_n_n none h ws)
      (Host.dotGeneral dot_S50000x128_S128x128_S50000x128_1_0_0_1_n_n none hn wn))
    (broadcastInDim S50000x128 ![0, 1] bcast_S1x128_S50000x128_0_1 (broadcastInDim S1x128 ![1] bcast_S128_S1x128_1 b))

def lin2 (h hn : FVec Ideal S50000x128 .f32) (ws wn : FVec Ideal S128x64 .f32) (b : FVec Ideal S64 .f32) : FVec Ideal S50000x64 .f32 :=
  addf (addf (Host.dotGeneral dot_S50000x128_S128x64_S50000x64_1_0_0_1_n_n none h ws)
      (Host.dotGeneral dot_S50000x128_S128x64_S50000x64_1_0_0_1_n_n none hn wn))
    (broadcastInDim S50000x64 ![0, 1] bcast_S1x64_S50000x64_0_1 (broadcastInDim S1x64 ![1] bcast_S64_S1x64_1 b))

/-- The rectifier as the reference writes it: the maximum with a zero splat. -/
def relu128 (x : FVec Ideal S50000x128 .f32) : FVec Ideal S50000x128 .f32 :=
  maximumf x (broadcastInDim S50000x128 ![] bcast_S_S50000x128 (constant (F := Ideal) S_ .f32 0x00000000#32))

/-- A bias `[e]` broadcast to `[1, e]` and then to `[n, e]`, at `(i, j)`, is `b[j]`: what its recast to a row holds at `(0, j)`. -/
theorem bias_apply {n e : Nat} (b : (⟨1, ![e]⟩ : Shape).Idx → EReal)
    (h1 : (⟨1, ![e]⟩ : Shape).BroadcastsInDim ⟨2, ![1, e]⟩ ![1]) (h2 : (⟨2, ![1, e]⟩ : Shape).BroadcastsInDim ⟨2, ![n, e]⟩ ![0, 1])
    (hc : (⟨1, ![e]⟩ : Shape).ShapeCasts ⟨2, ![1, e]⟩) (i : Fin n) (j : Fin e) :
    broadcastInDim ⟨2, ![n, e]⟩ ![0, 1] h2 (broadcastInDim ⟨2, ![1, e]⟩ ![1] h1 b) (ix2 i j)
      = shapeCast ⟨2, ![1, e]⟩ b hc (ix2 (0 : Fin 1) j) := by
  rw [shapeCast_a_1a_apply b hc 0 j]
  refine (broadcastInDim_apply ![0, 1] h2 _ (ix2 i j) (ix2 (0 : Fin 1) j) fun a => ?_).trans
    (broadcastInDim_apply ![1] h1 b (ix2 (0 : Fin 1) j) (ix1 j) fun a => ?_)
  · match a with
    | ⟨0, _⟩ => rfl
    | ⟨1, _⟩ =>
      show j.val = if e = 1 then 0 else j.val
      split
      · have := j.isLt; omega
      · rfl
  · match a with
    | ⟨0, _⟩ =>
      show j.val = if e = 1 then 0 else j.val
      split
      · have := j.isLt; omega
      · rfl

theorem lin0_eq (h hn : FVec Ideal S50000x64 .f32) (ws wn : FVec Ideal S64x128 .f32) (b : FVec Ideal S128 .f32)
    (hc : S128.ShapeCasts S1x128) : lin0 h hn ws wn b = affine h hn ws wn (shapeCast S1x128 b hc) := by
  funext y
  obtain ⟨i, j, rfl⟩ : ∃ (i : Fin 50000) (j : Fin 128), y = ix2 i j := ⟨y 0, y 1, eq_ix2 y⟩
  rw [affine_ix2]
  have e1 := PlainProduct.dotGeneral_apply dot_S50000x64_S64x128_S50000x128_1_0_0_1_n_n rfl rfl
    (fun _ _ => rfl) (fun _ _ => rfl) (fun _ _ => rfl) (fun _ _ => rfl) none h ws i j
  have e2 := PlainProduct.dotGeneral_apply dot_S50000x64_S64x128_S50000x128_1_0_0_1_n_n rfl rfl
    (fun _ _ => rfl) (fun _ _ => rfl) (fun _ _ => rfl) (fun _ _ => rfl) none hn wn i j
  have e3 := bias_apply (n := 50000) b bcast_S128_S1x128_1 bcast_S1x128_S50000x128_0_1 hc i j
  unfold lin0 affineAt
  exact congrArg₂ (· + ·) (congrArg₂ (· + ·) e1 e2) e3

theorem lin1_eq (h hn : FVec Ideal S50000x128 .f32) (ws wn : FVec Ideal S128x128 .f32) (b : FVec Ideal S128 .f32)
    (hc : S128.ShapeCasts S1x128) : lin1 h hn ws wn b = affine h hn ws wn (shapeCast S1x128 b hc) := by
  funext y
  obtain ⟨i, j, rfl⟩ : ∃ (i : Fin 50000) (j : Fin 128), y = ix2 i j := ⟨y 0, y 1, eq_ix2 y⟩
  rw [affine_ix2]
  have e1 := PlainProduct.dotGeneral_apply dot_S50000x128_S128x128_S50000x128_1_0_0_1_n_n rfl rfl
    (fun _ _ => rfl) (fun _ _ => rfl) (fun _ _ => rfl) (fun _ _ => rfl) none h ws i j
  have e2 := PlainProduct.dotGeneral_apply dot_S50000x128_S128x128_S50000x128_1_0_0_1_n_n rfl rfl
    (fun _ _ => rfl) (fun _ _ => rfl) (fun _ _ => rfl) (fun _ _ => rfl) none hn wn i j
  have e3 := bias_apply (n := 50000) b bcast_S128_S1x128_1 bcast_S1x128_S50000x128_0_1 hc i j
  unfold lin1 affineAt
  exact congrArg₂ (· + ·) (congrArg₂ (· + ·) e1 e2) e3

theorem lin2_eq (h hn : FVec Ideal S50000x128 .f32) (ws wn : FVec Ideal S128x64 .f32) (b : FVec Ideal S64 .f32)
    (hc : S64.ShapeCasts S1x64) : lin2 h hn ws wn b = affine h hn ws wn (shapeCast S1x64 b hc) := by
  funext y
  obtain ⟨i, j, rfl⟩ : ∃ (i : Fin 50000) (j : Fin 64), y = ix2 i j := ⟨y 0, y 1, eq_ix2 y⟩
  rw [affine_ix2]
  have e1 := PlainProduct.dotGeneral_apply dot_S50000x128_S128x64_S50000x64_1_0_0_1_n_n rfl rfl
    (fun _ _ => rfl) (fun _ _ => rfl) (fun _ _ => rfl) (fun _ _ => rfl) none h ws i j
  have e2 := PlainProduct.dotGeneral_apply dot_S50000x128_S128x64_S50000x64_1_0_0_1_n_n rfl rfl
    (fun _ _ => rfl) (fun _ _ => rfl) (fun _ _ => rfl) (fun _ _ => rfl) none hn wn i j
  have e3 := bias_apply (n := 50000) b bcast_S64_S1x64_1 bcast_S1x64_S50000x64_0_1 hc i j
  unfold lin2 affineAt
  exact congrArg₂ (· + ·) (congrArg₂ (· + ·) e1 e2) e3

/-! ## A layer of the reference is the kernel program's layer -/

theorem layer0_eq (h hn : FVec Ideal S50000x64 .f32) (ws wn : FVec Ideal S64x128 .f32) (b : FVec Ideal S128 .f32)
    (hc : S128.ShapeCasts S1x128) :
    Cert.KernelIdeal.Net.lay0 h hn ws wn (shapeCast S1x128 b hc) = relu128 (lin0 h hn ws wn b) := by
  rw [lin0_eq h hn ws wn b hc]; rfl

theorem layer1_eq (h hn : FVec Ideal S50000x128 .f32) (ws wn : FVec Ideal S128x128 .f32) (b : FVec Ideal S128 .f32)
    (hc : S128.ShapeCasts S1x128) :
    Cert.KernelIdeal.Net.lay1 h hn ws wn (shapeCast S1x128 b hc) = relu128 (lin1 h hn ws wn b) := by
  rw [lin1_eq h hn ws wn b hc]; rfl

theorem layer2_eq (h hn : FVec Ideal S50000x128 .f32) (ws wn : FVec Ideal S128x64 .f32) (b : FVec Ideal S64 .f32)
    (hc : S64.ShapeCasts S1x64) :
    Cert.KernelIdeal.Net.lay2 h hn ws wn (shapeCast S1x64 b hc) = lin2 h hn ws wn b := by
  rw [lin2_eq h hn ws wn b hc]; rfl

/-! ## The whole reference -/

/-- The reference's network: its own layers over the host side both programs share. -/
def refNet (a0 : FVec Ideal S50000x64 .f32) (a1 a2 : IVec S800000 32)
    (a3 a4 : FVec Ideal S64x128 .f32) (a5 : FVec Ideal S128 .f32)
    (a6 a7 : FVec Ideal S128x128 .f32) (a8 : FVec Ideal S128 .f32)
    (a9 a10 : FVec Ideal S128x64 .f32) (a11 : FVec Ideal S64 .f32) : FVec Ideal S50000x64 .f32 :=
  lin2 (relu128 (lin1 (relu128 (lin0 a0 (Cert.KernelIdeal.Net.mean64 a0 a1 a2 (Cert.KernelIdeal.Net.degCol a2)) a3 a4 a5))
        (Cert.KernelIdeal.Net.mean128 (relu128 (lin0 a0 (Cert.KernelIdeal.Net.mean64 a0 a1 a2 (Cert.KernelIdeal.Net.degCol a2)) a3 a4 a5)) a1 a2 (Cert.KernelIdeal.Net.degCol a2))
        a6 a7 a8))
    (Cert.KernelIdeal.Net.mean128
      (relu128 (lin1 (relu128 (lin0 a0 (Cert.KernelIdeal.Net.mean64 a0 a1 a2 (Cert.KernelIdeal.Net.degCol a2)) a3 a4 a5))
        (Cert.KernelIdeal.Net.mean128 (relu128 (lin0 a0 (Cert.KernelIdeal.Net.mean64 a0 a1 a2 (Cert.KernelIdeal.Net.degCol a2)) a3 a4 a5)) a1 a2 (Cert.KernelIdeal.Net.degCol a2))
        a6 a7 a8))
      a1 a2 (Cert.KernelIdeal.Net.degCol a2))
    a9 a10 a11

/-- The reference's network is the kernel program's: layer by layer. -/
theorem refNet_eq_net (a0 : FVec Ideal S50000x64 .f32) (a1 a2 : IVec S800000 32)
    (a3 a4 : FVec Ideal S64x128 .f32) (a5 : FVec Ideal S128 .f32)
    (a6 a7 : FVec Ideal S128x128 .f32) (a8 : FVec Ideal S128 .f32)
    (a9 a10 : FVec Ideal S128x64 .f32) (a11 : FVec Ideal S64 .f32) :
    refNet a0 a1 a2 a3 a4 a5 a6 a7 a8 a9 a10 a11 = Cert.KernelIdeal.Net.net a0 a1 a2 a3 a4 a5 a6 a7 a8 a9 a10 a11 := by
  unfold refNet Cert.KernelIdeal.Net.net
  dsimp only
  rw [layer0_eq, layer1_eq, layer2_eq]

/-- The reference run's result term is its network of the launch memory's arguments: the operations are the same,
    spelt out; the host side's dimension records are the kernel program's, field by field. -/
theorem res_eq (m : (ℓ : Loc nD τ sig) → Buf (Elt Ideal) ℓ) (c : Dev nD) :
    Cert.ReferenceIdeal.Value.res_main_v76 (F := Ideal) m c
      = refNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v76 refNet lin0 lin1 lin2 relu128
    Cert.KernelIdeal.Net.mean64 Cert.KernelIdeal.Net.mean128 Cert.KernelIdeal.Net.degCol Cert.KernelIdeal.Net.srcRows Cert.KernelIdeal.Net.dstRows
  rfl

end Cert.RefNet

end
-- ==== Proof.lean ====
/-
  A three-layer mean-aggregating graph network, computed two ways, is one function of its inputs over the extended reals.

  Both programs compute, per layer, `h ← post((h · W_self + mean_nbr(h) · W_neigh) + b)`, where `mean_nbr(h)[i]` is the sum of
  the rows `h[src[e]]` over the edges `e` with `dst[e] = i`, divided by `max(deg[i], 1)`, and `post` is the rectifier after
  the first two layers and nothing after the third. The kernel program forms `mean_nbr` on the host and runs the two
  products, the bias and the rectifier in a launch tiled over 5000-row blocks of the 50000 nodes (its operands rounded
  to bf16 first, which is the identity at the ideal values); the reference does everything on the host with two
  `dot_general`s per layer. The host side is the same operations on both sides and is carried as one function; a row tile
  of the launch is the same rows of the reference's layer because each product entry is the same sum over the input
  features, the two products and the bias are added in the same order, and the tiles cover the rows. No law of the
  extended reals beyond that is used, so finiteness of the inputs is never opened.

  The three frames are the generated ones (the reference's is its generated run with the result dropped); the kernel
  program's idealization rewrote nothing, so that conjunct is `True`.
-/
import proofs.«174534_j14748917695089_1_alg».proof.Defs
import proofs.«174534_j14748917695089_1_alg».proof.Proof.Gen.Kernel
import proofs.«174534_j14748917695089_1_alg».proof.Proof.Gen.Kernel.Skeleton
import proofs.«174534_j14748917695089_1_alg».proof.Proof.Gen.Kernel.Launch
import proofs.«174534_j14748917695089_1_alg».proof.Proof.Gen.Kernel.Points
import proofs.«174534_j14748917695089_1_alg».proof.Proof.Gen.Kernel.Frame
import proofs.«174534_j14748917695089_1_alg».proof.Proof.Gen.KernelIdeal
import proofs.«174534_j14748917695089_1_alg».proof.Proof.Gen.KernelIdeal.Skeleton
import proofs.«174534_j14748917695089_1_alg».proof.Proof.Gen.KernelIdeal.Launch
import proofs.«174534_j14748917695089_1_alg».proof.Proof.Gen.KernelIdeal.Points
import proofs.«174534_j14748917695089_1_alg».proof.Proof.Gen.KernelIdeal.Frame
import proofs.«174534_j14748917695089_1_alg».proof.Proof.Gen.ReferenceIdeal
import proofs.«174534_j14748917695089_1_alg».proof.Proof.Gen.ReferenceIdeal.Run
import proofs.«174534_j14748917695089_1_alg».proof.Proof.Gen.Pre_finite_inputs
import proofs.«174534_j14748917695089_1_alg».proof.Proof.KernelRun
import proofs.«174534_j14748917695089_1_alg».proof.Proof.KernelValue
import proofs.«174534_j14748917695089_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel program's result array ends at the network of its arguments (the launches read as values, the host side
    walked through the boundaries) and the reference's at its own network of arguments that agree: one function. -/
theorem algebraic : Cert.algebraic_KernelIdeal_ReferenceIdeal := by
  intro m ρ m' ρ' _ hagree
  refine ⟨fun c => Cert.KernelIdeal.Gen.W6 m ρ c (Proc.devRef .tc Cert.KernelIdeal.main_v48),
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11⟩ := hagree c
  rw [Cert.RefNet.res_eq m' c, Cert.RefNet.refNet_eq_net, g0, g1, g2, g3, g4, g5, g6, g7, g8, g9, g10, g11]
  exact (Cert.KernelIdeal.Net.W6_v48 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
